-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S8x64 : Shape := ⟨2, ![8, 64]⟩
abbrev S8x4096x64 : Shape := ⟨3, ![8, 4096, 64]⟩
abbrev S1152x1024 : Shape := ⟨2, ![1152, 1024]⟩
abbrev S1024 : Shape := ⟨1, ![1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S1152x1024 : S_.BroadcastsInDim S1152x1024 (![] : Fin 0 → Fin S1152x1024.rank)
  reducesTo_S1152x1024_S_d0_1 : S1152x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1152x1024 .f32) (main_arg7 : FVec F S1024 .f32) (main_arg8 : FVec F S1024x1024 .f32) (main_arg9 : FVec F S1024 .f32) (main_v13 : IVec S_ 1) (main_v16 : IVec S1152x1024 1) : IVec S_ 1 :=
  let main_c_5 : IVec S_ 1 := constantI S_ 1 1#1
  let main_v17 : IVec S_ 1 := (fun x v => Host.reduce IntOp.andi x v reducesTo_S1152x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1152x1024 .f32 := Host.absf main_arg6
  let main_cst_8 : FVec F S_ .f32 := constant S_ .f32 0x7F800000#32
  let main_v25 : FVec F S1152x1024 .f32 := broadcastInDim S1152x1024 ![] bcast_S_S1152x1024 main_cst_8
  let main_v26 : IVec S1152x1024 1 := cmpf .olt main_v24 main_v25
  let main_c_9 : IVec S_ 1 := constantI S_ 1 1#1
  let main_v27 : IVec S_ 1 := (fun x v => Host.reduce IntOp.andi x v reducesTo_S1152x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S8x4096x1024 .f32) (main_arg1 : IVec S8x4096 32) (main_arg2 : FVec F S8x64 .f32) (main_arg3 : FVec F S8x4096x64 .f32) (main_arg4 : FVec F S1152x1024 .f32) (main_arg5 : FVec F S1024 .f32) (main_arg6 : FVec F S1152x1024 .f32) (main_arg7 : FVec F S1024 .f32) (main_arg8 : FVec F S1024x1024 .f32) (main_arg9 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x64 .f32 := Host.absf main_arg2
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8x4096x64 .f32 := Host.absf main_arg3
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S1152x1024 .f32 := Host.absf main_arg4
  let main_cst_4 : FVec F S_ .f32 := constant S_ .f32 0x7F800000#32
  let main_v15 : FVec F S1152x1024 .f32 := broadcastInDim S1152x1024 ![] bcast_S_S1152x1024 main_cst_4
  let main_v16 : IVec S1152x1024 1 := cmpf .olt main_v14 main_v15
  fn_part1 (F := F) main_arg5 main_arg6 main_arg7 main_arg8 main_arg9 main_v13 main_v16
-- ==== Kernel.lean ====
abbrev S8x4096x1024 : Shape := ⟨3, ![8, 4096, 1024]⟩
abbrev S8x4096 : Shape := ⟨2, ![8, 4096]⟩
abbrev S8x64 : Shape := ⟨2, ![8, 64]⟩
abbrev S8x4096x64 : Shape := ⟨3, ![8, 4096, 64]⟩
abbrev S1152x1024 : Shape := ⟨2, ![1152, 1024]⟩
abbrev S1024 : Shape := ⟨1, ![1024]⟩
abbrev S1024x1024 : Shape := ⟨2, ![1024, 1024]⟩
abbrev S64x1024 : Shape := ⟨2, ![64, 1024]⟩
abbrev S8x1024 : Shape := ⟨2, ![8, 1024]⟩
abbrev S1x1024 : Shape := ⟨2, ![1, 1024]⟩
abbrev S8x1x1024 : Shape := ⟨3, ![8, 1, 1024]⟩
abbrev S8x4096x1 : Shape := ⟨3, ![8, 4096, 1]⟩
abbrev S1x1024x1024 : Shape := ⟨3, ![1, 1024, 1024]⟩
abbrev S1x1024x64 : Shape := ⟨3, ![1, 1024, 64]⟩
abbrev S1x1x1024 : Shape := ⟨3, ![1, 1, 1024]⟩
abbrev S1x1024x1 : Shape := ⟨3, ![1, 1024, 1]⟩
abbrev S1024x64 : Shape := ⟨2, ![1024, 64]⟩
abbrev S1024x1 : Shape := ⟨2, ![1024, 1]⟩

abbrev nBuf : Space → Nat
  | .hbm => 33
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x64, .f32⟩
  | .hbm, ⟨3, _⟩ => ⟨S8x4096x64, .f32⟩
  | .hbm, ⟨4, _⟩ => ⟨S1152x1024, .f32⟩
  | .hbm, ⟨5, _⟩ => ⟨S1024, .f32⟩
  | .hbm, ⟨6, _⟩ => ⟨S1152x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S64x1024, .f32⟩
  | .hbm, ⟨12, _⟩ => ⟨S64x1024, .f32⟩
  | .hbm, ⟨13, _⟩ => ⟨S1024x1024, .f32⟩
  | .hbm, ⟨14, _⟩ => ⟨S64x1024, .f32⟩
  | .hbm, ⟨15, _⟩ => ⟨S64x1024, .f32⟩
  | .hbm, ⟨16, _⟩ => ⟨S8x1024, .f32⟩
  | .hbm, ⟨17, _⟩ => ⟨S1x1024, .f32⟩
  | .hbm, ⟨18, _⟩ => ⟨S8x1024, .f32⟩
  | .hbm, ⟨19, _⟩ => ⟨S8x1024, .f32⟩
  | .hbm, ⟨20, _⟩ => ⟨S8x1x1024, .f32⟩
  | .hbm, ⟨21, _⟩ => ⟨S8x1024, .f32⟩
  | .hbm, ⟨22, _⟩ => ⟨S1x1024, .f32⟩
  | .hbm, ⟨23, _⟩ => ⟨S8x1024, .f32⟩
  | .hbm, ⟨24, _⟩ => ⟨S8x1024, .f32⟩
  | .hbm, ⟨25, _⟩ => ⟨S8x1x1024, .f32⟩
  | .hbm, ⟨26, _⟩ => ⟨S1024x1024, .bf16⟩
  | .hbm, ⟨27, _⟩ => ⟨S1024x1024, .bf16⟩
  | .hbm, ⟨28, _⟩ => ⟨S64x1024, .bf16⟩
  | .hbm, ⟨29, _⟩ => ⟨S64x1024, .bf16⟩
  | .hbm, ⟨30, _⟩ => ⟨S8x4096x1, .i32⟩
  | .hbm, ⟨31, _⟩ => ⟨S8x4096x1, .f32⟩
  | .hbm, ⟨32, _⟩ => ⟨S8x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1, .i32⟩
  | .local _ .vmem, ⟨9, _⟩ => ⟨S1x1024x1, .i32⟩
  | .local _ .vmem, ⟨10, _⟩ => ⟨S1024x1024, .bf16⟩
  | .local _ .vmem, ⟨11, _⟩ => ⟨S1024x1024, .bf16⟩
  | .local _ .vmem, ⟨12, _⟩ => ⟨S64x1024, .bf16⟩
  | .local _ .vmem, ⟨13, _⟩ => ⟨S64x1024, .bf16⟩
  | .local _ .vmem, ⟨14, _⟩ => ⟨S1x1024x1, .f32⟩
  | .local _ .vmem, ⟨15, _⟩ => ⟨S1x1024x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S1152x1024_S1024x1024_0_0 : S1152x1024.Slices ![0, 0] S1024x1024
  slices_S1152x1024_S64x1024_1024_0 : S1152x1024.Slices ![1024, 0] S64x1024
  slices_S1152x1024_S64x1024_1088_0 : S1152x1024.Slices ![1088, 0] S64x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  shapeCasts_S8x1024_S8x1x1024 : S8x1024.ShapeCasts S8x1x1024
  bitsLt_bf16_f32 : FTy.bits .bf16 < FTy.bits .f32
  shapeCasts_S8x4096_S8x4096x1 : S8x4096.ShapeCasts S8x4096x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  broadcasts_S1x1024_S1024x1024 : S1x1024.Broadcasts S1024x1024
  reduces_S1024x1024_S1024 : S1024x1024.Reduces [1] S1024
  shapeCasts_S1024_S1024x1 : S1024.ShapeCasts S1024x1
  shapeCasts_S1024x1_S1x1024x1 : S1024x1.ShapeCasts S1x1024x1
  shapeCasts_S8x4096x1_S8x4096 : S8x4096x1.ShapeCasts S8x4096
  dot_S8x64_S64x1024_S8x1024_1_0_0_1_n_n_wf : DotDims.WF S8x64 S64x1024 S8x1024 [1] [0] [0] [1] [] []
  dot_S1024x1024_S1024x1024_S1024x1024_1_0_0_1_n_n_wf : DotDims.WF S1024x1024 S1024x1024 S1024x1024 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x4096x64.size a
  hwx0_1 : ∀ i : grid0.Coords, EltTy.bits .f32 = 32 ∨ (Rect.block (s := S8x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S8x4096x1.size a
  hwx0_4 : ∀ i : grid0.Coords, EltTy.bits .i32 = 32 ∨ (Rect.block (s := S8x4096x1) S1x1024x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x1024.size a
  hwx0_7 : ∀ i : grid0.Coords, EltTy.bits .bf16 = 32 ∨ (Rect.block (s := S64x1024) S64x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x1024.size a
  hwx0_8 : ∀ i : grid0.Coords, EltTy.bits .bf16 = 32 ∨ (Rect.block (s := S64x1024) S64x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1.size a ≤ S8x4096x1.size a
  hwx0_9 : ∀ i : grid0.Coords, EltTy.bits .f32 = 32 ∨ (Rect.block (s := S8x4096x1) S1x1024x1.size (cc0_transform_9 i) (hinb0_9 i)).WholeWords (EltTy.packing .f32)

variable [Facts₀]

def dot_S8x64_S64x1024_S8x1024_1_0_0_1_n_n : DotDims S8x64 S64x1024 S8x1024 where
  lhsContracting := [1]
  rhsContracting := [0]
  lhsNonContracting := [0]
  rhsNonContracting := [1]
  lhsBatch := []
  rhsBatch := []
  wf := dot_S8x64_S64x1024_S8x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S64x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S64x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S8x64 : Shape := ⟨2, ![8, 64]⟩
abbrev S8x4096x64 : Shape := ⟨3, ![8, 4096, 64]⟩
abbrev S1152x1024 : Shape := ⟨2, ![1152, 1024]⟩
abbrev S1024 : Shape := ⟨1, ![1024]⟩
abbrev S1024x1024 : Shape := ⟨2, ![1024, 1024]⟩
abbrev S8x1x64 : Shape := ⟨3, ![8, 1, 64]⟩
abbrev S8x4096x1152 : Shape := ⟨3, ![8, 4096, 1152]⟩
abbrev S1x1x1024 : Shape := ⟨3, ![1, 1, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x64, .f32⟩
  | .hbm, ⟨3, _⟩ => ⟨S8x4096x64, .f32⟩
  | .hbm, ⟨4, _⟩ => ⟨S1152x1024, .f32⟩
  | .hbm, ⟨5, _⟩ => ⟨S1024, .f32⟩
  | .hbm, ⟨6, _⟩ => ⟨S1152x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x1x64, .f32⟩
  | .hbm, ⟨11, _⟩ => ⟨S8x4096x64, .f32⟩
  | .hbm, ⟨12, _⟩ => ⟨S8x4096x1152, .f32⟩
  | .hbm, ⟨13, _⟩ => ⟨S8x4096x1024, .f32⟩
  | .hbm, ⟨14, _⟩ => ⟨S1x1x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .i32⟩
  | .hbm, ⟨42, _⟩ => ⟨S8x4096, .i32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_call3_v0 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  bcast_S8x64_S8x1x64_0_2 : S8x64.BroadcastsInDim S8x1x64 (![0, 2] : Fin 2 → Fin S8x1x64.rank)
  bcast_S8x1x64_S8x4096x64_0_1_2 : S8x1x64.BroadcastsInDim S8x4096x64 (![0, 1, 2] : Fin 3 → Fin S8x4096x64.rank)
  concatenates_S8x4096x1024_S8x4096x64_S8x4096x64_S8x4096x1152_d2 : Shape.Concatenates [S8x4096x1024, S8x4096x64, S8x4096x64] S8x4096x1152 2
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S8x4096x1024_S8x4096_d2 : S8x4096x1024.ReducesTo [2] S8x4096
  h_S_ : 0 < S_.numel
  bcast_S_S8x4096 : S_.BroadcastsInDim S8x4096 (![] : Fin 0 → Fin S8x4096.rank)
  dot_S8x4096x1152_S1152x1024_S8x4096x1024_2_0_01_1_n_n_wf : DotDims.WF S8x4096x1152 S1152x1024 S8x4096x1024 [2] [0] [0, 1] [1] [] []
  dot_S8x4096x1024_S1024x1024_S8x4096x1024_2_0_01_1_n_n_wf : DotDims.WF S8x4096x1024 S1024x1024 S8x4096x1024 [2] [0] [0, 1] [1] [] []

variable [Facts₀]

def dot_S8x4096x1152_S1152x1024_S8x4096x1024_2_0_01_1_n_n : DotDims S8x4096x1152 S1152x1024 S8x4096x1024 where
  lhsContracting := [2]
  rhsContracting := [0]
  lhsNonContracting := [0, 1]
  rhsNonContracting := [1]
  lhsBatch := []
  rhsBatch := []
  wf := dot_S8x4096x1152_S1152x1024_S8x4096x1024_2_0_01_1_n_n_wf
def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KernelBody.lean ====
/-
  One row of the kernel body's result block, read at an index.

  The body loads a [1, 1024, 1024] block of `h`, a [1, 1024, 64] block of `l`, the two per-batch bias rows
  [1, 1, 1024], a [1, 1024, 1] block of mask words and the four weight pieces, and stores one [1, 1024, 1] block.
  Row `r` of that block is: the fill constant where the row's mask word is 1; elsewhere the sum over the 1024
  columns `a` of the product of the two rectified pre-activations, scaled by 2⁻⁵ — each pre-activation being the
  row of the `h` block against column `a` of the first weight piece, plus the row of the `l` block against
  column `a` of the second, plus entry `a` of the bias row (`blockLin`).
-/
import proofs.«142428_j89232240541956_1_alg».proof.Proof.Gen.KernelIdeal.Frame
import proofs.«142428_j89232240541956_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- Row `r`, column `a` of a pre-activation inside one block. -/
def blockLin (x0 : Vec Ideal S1x1024x1024 .f32) (x1 : Vec Ideal S1x1024x64 .f32) (xb : Vec Ideal S1x1x1024 .f32)
    (wh : Vec Ideal S1024x1024 .bf16) (wl : Vec Ideal S64x1024 .bf16) (r : Fin 1024) (a : Fin 1024) : EReal :=
  ((∑ e : Fin 1024, x0 (ix3 0 r e) * wh (ix2 e a)) + (∑ e : Fin 64, x1 (ix3 0 r e) * wl (ix2 e a))) + xb (ix3 0 0 a)

/-! ## The loaded blocks, flattened -/

/-- The `h` block with its unit axis dropped and its format narrowed (the identity on extended reals). -/
theorem pay2_apply (x0 : Vec Ideal S1x1024x1024 .f32) (r e : Fin 1024) :
    k0_pay2 (F := Ideal) x0 (ix2 r e) = x0 (ix3 0 r e) :=
  shapeCast_1ab_ab_apply x0 shapeCasts_S1x1024x1024_S1024x1024 r e

/-- The `l` block likewise. -/
theorem pay3_apply (x1 : Vec Ideal S1x1024x64 .f32) (r : Fin 1024) (e : Fin 64) :
    k0_pay3 (F := Ideal) x1 (ix2 r e) = x1 (ix3 0 r e) :=
  shapeCast_1ab_ab_apply x1 shapeCasts_S1x1024x64_S1024x64 r e

/-- A bias row with its leading unit axis dropped. -/
theorem pay4_apply (xb : Vec Ideal S1x1x1024 .f32) (a : Fin 1024) :
    k0_pay4 (F := Ideal) xb (ix2 0 a) = xb (ix3 0 0 a) :=
  shapeCast_1ab_ab_apply xb shapeCasts_S1x1x1024_S1x1024 0 a

/-- The mask block with its leading unit axis dropped. -/
theorem pay5_apply (x4 : Vec Ideal S1x1024x1 .i32) (r : Fin 1024) :
    k0_pay5 (F := Ideal) x4 (ix2 r 0) = x4 (ix3 0 r 0) :=
  shapeCast_1ab_ab_apply x4 shapeCasts_S1x1024x1_S1024x1 r 0

/-! ## A row's sum kept as a column -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the columns of a [1024, 1024] array, read at row `r`. -/
theorem rowSum_apply (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r)
      = ∑ a : Fin 1024, src (ix2 r a) := by
  refine (Ideal.multiReduction_add_single src 0x00000000#32 reduces_S1024x1024_S1024 hφ hacc (ix1 r)).trans ?_
  refine Finset.sum_congr rfl fun a _ => congrArg src ?_
  exact funext fun d => Fin.ext (by match d with | ⟨0, _⟩ => rfl | ⟨1, _⟩ => rfl)

/-! ## The two pre-activations -/

/-- The second pre-activation before its bias: the two matrix products' sum. -/
theorem pay7_apply (x0 : Vec Ideal S1x1024x1024 .f32) (x1 : Vec Ideal S1x1024x64 .f32)
    (wh : Vec Ideal S1024x1024 .bf16) (wl : Vec Ideal S64x1024 .bf16) (r a : Fin 1024) :
    k0_pay7 (F := Ideal) x0 x1 wh wl (ix2 r a)
      = (∑ e : Fin 1024, x0 (ix3 0 r e) * wh (ix2 e a)) + ∑ e : Fin 64, x1 (ix3 0 r e) * wl (ix2 e a) := by
  unfold k0_pay7
  rw [shapeCast_self, shapeCast_self]
  show matmul (DotDims.plain 1024 1024 1024) none (k0_pay2 (F := Ideal) x0) wh (constant ⟨2, ![1024, 1024]⟩ .f32 0x00000000#32) (ix2 r a)
      + matmul (DotDims.plain 1024 64 1024) none (k0_pay3 (F := Ideal) x1) wl (constant ⟨2, ![1024, 1024]⟩ .f32 0x00000000#32) (ix2 r a) = _
  rw [PlainDot.matmul_zero_apply, PlainDot.matmul_zero_apply]
  show (∑ e : Fin 1024, k0_pay2 (F := Ideal) x0 (ix2 r e) * wh (ix2 e a))
      + (∑ e : Fin 64, k0_pay3 (F := Ideal) x1 (ix2 r e) * wl (ix2 e a)) = _
  simp only [pay2_apply, pay3_apply]

/-- The first pre-activation, rectified. -/
theorem pay6_apply (x0 : Vec Ideal S1x1024x1024 .f32) (x1 : Vec Ideal S1x1024x64 .f32) (xb : Vec Ideal S1x1x1024 .f32)
    (wh : Vec Ideal S1024x1024 .bf16) (wl : Vec Ideal S64x1024 .bf16) (r a : Fin 1024) :
    k0_pay6 (F := Ideal) x0 x1 xb wh wl (ix2 r a) = max (blockLin x0 x1 xb wh wl r a) 0 := by
  unfold k0_pay6
  rw [shapeCast_self, shapeCast_self]
  show max ((matmul (DotDims.plain 1024 1024 1024) none (k0_pay2 (F := Ideal) x0) wh (constant ⟨2, ![1024, 1024]⟩ .f32 0x00000000#32) (ix2 r a)
      + matmul (DotDims.plain 1024 64 1024) none (k0_pay3 (F := Ideal) x1) wl (constant ⟨2, ![1024, 1024]⟩ .f32 0x00000000#32) (ix2 r a))
      + broadcastTo S1024x1024 (shapeCast S1x1024 xb shapeCasts_S1x1x1024_S1x1024) broadcasts_S1x1024_S1024x1024 (ix2 r a))
      (Ideal.ofBits .f32 0x00000000#32) = _
  rw [PlainDot.matmul_zero_apply, PlainDot.matmul_zero_apply, broadcastTo_1b_ab_apply, shapeCast_1ab_ab_apply,
    Ideal.ofBits_zero_f32]
  show max (((∑ e : Fin 1024, k0_pay2 (F := Ideal) x0 (ix2 r e) * wh (ix2 e a))
      + (∑ e : Fin 64, k0_pay3 (F := Ideal) x1 (ix2 r e) * wl (ix2 e a))) + xb (ix3 0 0 a)) 0 = _
  simp only [pay2_apply, pay3_apply]
  rfl

/-! ## The stored block -/

/-- Row `r` of the stored block, from the values the body computed before the store. -/
theorem pay1_apply (v9 : FVec Ideal S1x1024 .f32) (v11 : IVec S1024x1 32) (v26 v29 : FVec Ideal S1024x1024 .f32)
    (r : Fin 1024) :
    k0_pay1 (F := Ideal) v9 v11 v26 v29 (ix3 0 r 0)
      = Scalar.select (IntOp.cmpi .eq (v11 (ix2 r 0)) 1#32) (Ideal.ofBits .f32 0xCE6E6B28#32)
          ((∑ a : Fin 1024, v26 (ix2 r a) * max (v29 (ix2 r a) + v9 (ix2 0 a)) 0)
            * Ideal.ofBits .f32 0x3D000000#32) := by
  unfold k0_pay1
  refine (shapeCast_ab_1ab_apply _ shapeCasts_S1024x1_S1x1024x1 0 r 0).trans ?_
  show Scalar.select (IntOp.cmpi .eq (v11 (ix2 r 0)) 1#32) (Ideal.ofBits .f32 0xCE6E6B28#32)
      (shapeCast S1024x1 (multiReduction .add [1] S1024
          (mulf v26 (maximumf (addf v29 (broadcastTo S1024x1024 v9 broadcasts_S1x1024_S1024x1024))
            (broadcast S1024x1024 (Ideal.ofBits .f32 0x00000000#32))))
          0x00000000#32 reduces_S1024x1024_S1024 (.inl rfl) rfl) shapeCasts_S1024_S1024x1 (ix2 r 0)
        * Ideal.ofBits .f32 0x3D000000#32) = _
  rw [shapeCast_a_a1_apply]
  refine congrArg (fun z => Scalar.select (IntOp.cmpi .eq (v11 (ix2 r 0)) 1#32) (Ideal.ofBits .f32 0xCE6E6B28#32)
    (z * Ideal.ofBits .f32 0x3D000000#32)) ?_
  refine (rowSum_apply _ _ _ r).trans ?_
  refine Finset.sum_congr rfl fun a _ => ?_
  show v26 (ix2 r a) * max (v29 (ix2 r a) + broadcastTo S1024x1024 v9 broadcasts_S1x1024_S1024x1024 (ix2 r a))
      (Ideal.ofBits .f32 0x00000000#32) = _
  rw [broadcastTo_1b_ab_apply, Ideal.ofBits_zero_f32]

/-- Row `r` of the block the body stores. -/
theorem out_block_apply (x0 : Vec Ideal S1x1024x1024 .f32) (x1 : Vec Ideal S1x1024x64 .f32)
    (x2 : Vec Ideal S1x1x1024 .f32) (x3 : Vec Ideal S1x1x1024 .f32) (x4 : Vec Ideal S1x1024x1 .i32)
    (x5 : Vec Ideal S1024x1024 .bf16) (x6 : Vec Ideal S1024x1024 .bf16) (x7 : Vec Ideal S64x1024 .bf16)
    (x8 : Vec Ideal S64x1024 .bf16) (r : Fin 1024) :
    out0_9 (F := Ideal) x0 x1 x2 x3 x4 x5 x6 x7 x8 (ix3 0 r 0)
      = Scalar.select (IntOp.cmpi .eq (x4 (ix3 0 r 0)) 1#32) (Ideal.ofBits .f32 0xCE6E6B28#32)
          ((∑ a : Fin 1024, max (blockLin x0 x1 x2 x5 x7 r a) 0 * max (blockLin x0 x1 x3 x6 x8 r a) 0)
            * Ideal.ofBits .f32 0x3D000000#32) := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_9
  rw [View.canon_unit_zero hz3]
  simp only [View.ld_unit_zero (S := S1x1024x1024) hz3, View.ld_unit_zero (S := S1x1024x64) hz3,
    View.ld_unit_zero (S := S1x1x1024) hz3, View.ld_unit_zero (S := S1x1024x1) hz3,
    View.ld_unit_zero (S := S1024x1024) hz2, View.ld_unit_zero (S := S64x1024) hz2]
  rw [pay1_apply]
  simp only [pay4_apply, pay5_apply, pay6_apply, pay7_apply]
  rfl

end Cert.KernelIdeal.Body

end
-- ==== Proof.Spec.lean ====
/-
  The value both programs compute, as one function of the argument arrays, over the extended reals.

  For a batch `b`, a sequence position `s` and an attention column `a`, a projection's pre-activation is the
  contraction of the row `[h(b,s,·) | g(b,·) | l(b,s,·)]` (1024 + 64 + 64 = 1152 entries) with column `a` of a
  weight matrix, plus a bias. Written in three pieces — the rows of the weight matrix that meet `h`, those that
  meet `l`, and those that meet `g` (which, with the bias, do not depend on `s`) — it is `lin`. The score of a
  token is the sum over `a` of the product of the two rectified projections, scaled by 2⁻⁵ = 1/√1024, and a
  token whose mask word is 1 gets the constant -10⁹ instead.

  The only law between the two arrangements of a pre-activation is that a sum over 1152 consecutive indices is
  the sum over its first 1024, its next 64 and its last 64 (`sum_split`), and that addition on the extended reals is
  commutative and associative (`lin_eq_whole`); no finiteness is needed for either.
-/
import Idealize.ShloMosaic.PureOps.Ideal.Laws
import Idealize.ShloMosaic.Lib.ValueIdx

noncomputable section

namespace Cert.Attn

open Idealize.ShloMosaic Idealize.ShloMosaic.ValueIdx

/-- Row `e` of the part of a weight matrix that meets `h`. -/
def rowH (e : Fin 1024) : Fin 1152 := ⟨e.val, by omega⟩
/-- Row `e` of the part that meets `g`: 1024 rows further down. -/
def rowG (e : Fin 64) : Fin 1152 := ⟨1024 + e.val, by omega⟩
/-- Row `e` of the part that meets `l`: 1088 rows further down. -/
def rowL (e : Fin 64) : Fin 1152 := ⟨1088 + e.val, by omega⟩

/-- The part of a pre-activation that does not depend on the sequence position: `g(b,·)` against its rows of
    the weight matrix, plus the bias. -/
def gbias (g : (⟨2, ![8, 64]⟩ : Shape).Idx → EReal) (W : (⟨2, ![1152, 1024]⟩ : Shape).Idx → EReal)
    (bias : (⟨1, ![1024]⟩ : Shape).Idx → EReal) (b : Fin 8) (a : Fin 1024) : EReal :=
  (∑ e : Fin 64, g (ix2 b e) * W (ix2 (rowG e) a)) + bias (ix1 a)

/-- A projection's pre-activation at `(b, s, a)`, in three pieces. -/
def lin (h : (⟨3, ![8, 4096, 1024]⟩ : Shape).Idx → EReal) (g : (⟨2, ![8, 64]⟩ : Shape).Idx → EReal)
    (l : (⟨3, ![8, 4096, 64]⟩ : Shape).Idx → EReal) (W : (⟨2, ![1152, 1024]⟩ : Shape).Idx → EReal)
    (bias : (⟨1, ![1024]⟩ : Shape).Idx → EReal) (b : Fin 8) (s : Fin 4096) (a : Fin 1024) : EReal :=
  ((∑ e : Fin 1024, h (ix3 b s e) * W (ix2 (rowH e) a)) + (∑ e : Fin 64, l (ix3 b s e) * W (ix2 (rowL e) a)))
    + gbias g W bias b a

/-- The scaled sum of products of the two rectified projections at token `(b, s)`. -/
def score (h : (⟨3, ![8, 4096, 1024]⟩ : Shape).Idx → EReal) (g : (⟨2, ![8, 64]⟩ : Shape).Idx → EReal)
    (l : (⟨3, ![8, 4096, 64]⟩ : Shape).Idx → EReal) (Wq : (⟨2, ![1152, 1024]⟩ : Shape).Idx → EReal)
    (bq : (⟨1, ![1024]⟩ : Shape).Idx → EReal) (Wk : (⟨2, ![1152, 1024]⟩ : Shape).Idx → EReal)
    (bk : (⟨1, ![1024]⟩ : Shape).Idx → EReal) (b : Fin 8) (s : Fin 4096) : EReal :=
  (∑ a : Fin 1024, max (lin h g l Wq bq b s a) 0 * max (lin h g l Wk bk b s a) 0) * Ideal.ofBits .f32 0x3D000000#32

/-- The result at token `(b, s)`: the fill constant where the mask word is 1, the score elsewhere. -/
def tokenValue (h : (⟨3, ![8, 4096, 1024]⟩ : Shape).Idx → EReal) (mask : (⟨2, ![8, 4096]⟩ : Shape).Idx → BitVec 32)
    (g : (⟨2, ![8, 64]⟩ : Shape).Idx → EReal)
    (l : (⟨3, ![8, 4096, 64]⟩ : Shape).Idx → EReal) (Wq : (⟨2, ![1152, 1024]⟩ : Shape).Idx → EReal)
    (bq : (⟨1, ![1024]⟩ : Shape).Idx → EReal) (Wk : (⟨2, ![1152, 1024]⟩ : Shape).Idx → EReal)
    (bk : (⟨1, ![1024]⟩ : Shape).Idx → EReal) (b : Fin 8) (s : Fin 4096) : EReal :=
  Scalar.select (IntOp.cmpi .eq (mask (ix2 b s)) 1#32) (Ideal.ofBits .f32 0xCE6E6B28#32) (score h g l Wq bq Wk bk b s)

/-- The whole result array, [8, 4096]. -/
def result (h : (⟨3, ![8, 4096, 1024]⟩ : Shape).Idx → EReal) (mask : (⟨2, ![8, 4096]⟩ : Shape).Idx → BitVec 32)
    (g : (⟨2, ![8, 64]⟩ : Shape).Idx → EReal)
    (l : (⟨3, ![8, 4096, 64]⟩ : Shape).Idx → EReal) (Wq : (⟨2, ![1152, 1024]⟩ : Shape).Idx → EReal)
    (bq : (⟨1, ![1024]⟩ : Shape).Idx → EReal) (Wk : (⟨2, ![1152, 1024]⟩ : Shape).Idx → EReal)
    (bk : (⟨1, ![1024]⟩ : Shape).Idx → EReal) : (⟨2, ![8, 4096]⟩ : Shape).Idx → EReal :=
  fun i => tokenValue h mask g l Wq bq Wk bk (i 0) (i 1)

/-- The kernel's output array, [8, 4096, 1]: the same values under a trailing unit axis. -/
def result3 (h : (⟨3, ![8, 4096, 1024]⟩ : Shape).Idx → EReal) (mask : (⟨2, ![8, 4096]⟩ : Shape).Idx → BitVec 32)
    (g : (⟨2, ![8, 64]⟩ : Shape).Idx → EReal)
    (l : (⟨3, ![8, 4096, 64]⟩ : Shape).Idx → EReal) (Wq : (⟨2, ![1152, 1024]⟩ : Shape).Idx → EReal)
    (bq : (⟨1, ![1024]⟩ : Shape).Idx → EReal) (Wk : (⟨2, ![1152, 1024]⟩ : Shape).Idx → EReal)
    (bk : (⟨1, ![1024]⟩ : Shape).Idx → EReal) : (⟨3, ![8, 4096, 1]⟩ : Shape).Idx → EReal :=
  fun i => tokenValue h mask g l Wq bq Wk bk (i 0) (i 1)

/-- A sum over 1152 consecutive indices, split at 1024 and at 1088. -/
theorem sum_split (X : Fin 1152 → EReal) :
    ∑ e : Fin 1152, X e = (∑ e : Fin 1024, X (rowH e)) + (∑ e : Fin 64, X (rowG e)) + ∑ e : Fin 64, X (rowL e) := by
  have h1 : ∑ e : Fin (1024 + 128), X e
      = (∑ e : Fin 1024, X (Fin.castAdd 128 e)) + ∑ e : Fin 128, X (Fin.natAdd 1024 e) :=
    Fin.sum_univ_add (a := 1024) (b := 128) (fun e : Fin (1024 + 128) => X e)
  have h2 : ∑ e : Fin (64 + 64), X (Fin.natAdd 1024 e)
      = (∑ e : Fin 64, X (Fin.natAdd 1024 (Fin.castAdd 64 e))) + ∑ e : Fin 64, X (Fin.natAdd 1024 (Fin.natAdd 64 e)) :=
    Fin.sum_univ_add (a := 64) (b := 64) (fun e : Fin (64 + 64) => X (Fin.natAdd 1024 e))
  have e1 : ∀ e : Fin 1024, (Fin.castAdd 128 e : Fin (1024 + 128)) = rowH e := fun e => Fin.ext rfl
  have e2 : ∀ e : Fin 64, (Fin.natAdd 1024 (Fin.castAdd 64 e) : Fin (1024 + (64 + 64))) = rowG e := fun e => Fin.ext rfl
  have e3 : ∀ e : Fin 64, (Fin.natAdd 1024 (Fin.natAdd 64 e) : Fin (1024 + (64 + 64))) = rowL e := fun e =>
    Fin.ext (by show 1024 + (64 + e.val) = 1088 + e.val; omega)
  calc ∑ e : Fin 1152, X e
      = (∑ e : Fin 1024, X (Fin.castAdd 128 e)) + ∑ e : Fin 128, X (Fin.natAdd 1024 e) := h1
    _ = (∑ e : Fin 1024, X (Fin.castAdd 128 e))
          + ((∑ e : Fin 64, X (Fin.natAdd 1024 (Fin.castAdd 64 e))) + ∑ e : Fin 64, X (Fin.natAdd 1024 (Fin.natAdd 64 e))) := by
        rw [← h2]
    _ = (∑ e : Fin 1024, X (rowH e)) + (∑ e : Fin 64, X (rowG e)) + ∑ e : Fin 64, X (rowL e) := by
        simp only [e1, e2, e3, add_assoc]

/-- The pre-activation as ONE contraction over the 1152 entries of the joined row `x`, plus the bias, given that
    `x` reads `h`, `g` and `l` on its three stretches. -/
theorem lin_eq_whole (h : (⟨3, ![8, 4096, 1024]⟩ : Shape).Idx → EReal) (g : (⟨2, ![8, 64]⟩ : Shape).Idx → EReal)
    (l : (⟨3, ![8, 4096, 64]⟩ : Shape).Idx → EReal) (W : (⟨2, ![1152, 1024]⟩ : Shape).Idx → EReal)
    (bias : (⟨1, ![1024]⟩ : Shape).Idx → EReal) (b : Fin 8) (s : Fin 4096) (a : Fin 1024)
    (x : Fin 1152 → EReal) (hH : ∀ e, x (rowH e) = h (ix3 b s e)) (hG : ∀ e, x (rowG e) = g (ix2 b e))
    (hL : ∀ e, x (rowL e) = l (ix3 b s e)) :
    (∑ e : Fin 1152, x e * W (ix2 e a)) + bias (ix1 a) = lin h g l W bias b s a := by
  rw [sum_split (fun e => x e * W (ix2 e a))]
  simp only [hH, hG, hL]
  unfold lin gbias
  ac_rfl

end Cert.Attn

end
-- ==== Proof.HostPrefix.lean ====
/-
  The arrays the host lines before the kernel's region write, read at an index, as functions of the arguments.

  The two per-batch bias arrays [8, 1, 1024] are `g` against the 64 rows of a weight matrix that meet it, plus the
  bias vector (`Cert.Attn.gbias`); the four weight pieces are row stretches of the two weight matrices (their
  change of float format is the identity on the extended reals); the mask array [8, 4096, 1] is the mask under a
  trailing unit axis.
-/
import proofs.«142428_j89232240541956_1_alg».proof.Proof.Gen.KernelIdeal.Frame
import proofs.«142428_j89232240541956_1_alg».proof.Proof.LibPlainDot
import proofs.«142428_j89232240541956_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostPrefix

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- A row stretch of a matrix, after the change of float format (the identity on the extended reals), read at an
    index: row `j` of the stretch from `o` is row `o + j` of the matrix. -/
theorem piece_apply {n0 n1 k : Nat} (o : Nat) (X : FVec Ideal ⟨2, ![n0, n1]⟩ .f32)
    (h : (⟨2, ![n0, n1]⟩ : Shape).Slices ![o, 0] ⟨2, ![k, n1]⟩) (hb : FTy.bits .bf16 < FTy.bits .f32)
    (j : Fin k) (e : Fin n1) (r : Fin n0) (hr : r.val = o + j.val) :
    (truncf (F := Ideal) .bf16 (extractStridedSlice ⟨2, ![k, n1]⟩ ![o, 0] X h) hb : FVec Ideal ⟨2, ![k, n1]⟩ .bf16) (ix2 j e)
      = X (ix2 r e) :=
  slice2_axis0_apply o X h j e r hr

/-- The bias vector under a leading unit axis, repeated along the batch axis, read at `(b, a)`. -/
theorem bias_rows_apply (bias : FVec Ideal S1024 .f32) (b : Fin 8) (a : Fin 1024) :
    broadcastInDim S8x1024 ![0, 1] bcast_S1x1024_S8x1024_0_1 (broadcastInDim S1x1024 ![1] bcast_S1024_S1x1024_1 bias) (ix2 b a)
      = bias (ix1 a) := by
  refine (broadcastInDim_apply _ bcast_S1x1024_S8x1024_0_1 _ (ix2 b a) (ix2 (0 : Fin 1) a) (fun ax => match ax with
    | ⟨0, _⟩ => by show (0 : Nat) = if (1 : Nat) = 1 then 0 else b.val; rw [if_pos rfl]
    | ⟨1, _⟩ => by show a.val = if (1024 : Nat) = 1 then 0 else a.val; rw [if_neg (by decide)])).trans ?_
  exact broadcastInDim_apply _ bcast_S1024_S1x1024_1 bias (ix2 (0 : Fin 1) a) (ix1 a) (fun ax => match ax with
    | ⟨0, _⟩ => by show a.val = if (1024 : Nat) = 1 then 0 else a.val; rw [if_neg (by decide)])

/-- `g` against the 64 rows of a weight matrix from row 1024 on, read at `(b, a)`. -/
theorem g_rows_apply (g : FVec Ideal S8x64 .f32) (W : FVec Ideal S1152x1024 .f32) (b : Fin 8) (a : Fin 1024) :
    Host.dotGeneral (F := Ideal) dot_S8x64_S64x1024_S8x1024_1_0_0_1_n_n none g
        (extractStridedSlice S64x1024 ![1024, 0] W slices_S1152x1024_S64x1024_1024_0) (ix2 b a)
      = ∑ e : Fin 64, g (ix2 b e) * W (ix2 (Cert.Attn.rowG e) a) := by
  simp only [Host.dotGeneral]
  rw [Ideal.dotGeneral_apply]
  have hp : dot_S8x64_S64x1024_S8x1024_1_0_0_1_n_n = DotDims.plain 8 64 1024 := rfl
  rw [hp]
  refine (PlainDot.sum_contr 8 64 1024 g _ (ix2 b a)).trans ?_
  refine Finset.sum_congr rfl fun e _ => ?_
  exact congrArg (g (ix2 b e) * ·) (slice2_axis0_apply 1024 W slices_S1152x1024_S64x1024_1024_0 e a (Cert.Attn.rowG e) rfl)

/-- The per-batch bias array [8, 1, 1024] as the host lines build it from `g`, a weight matrix and a bias vector,
    read at `(b, 0, a)`. -/
theorem bias_array_apply (g : FVec Ideal S8x64 .f32) (W : FVec Ideal S1152x1024 .f32) (bias : FVec Ideal S1024 .f32)
    (b : Fin 8) (a : Fin 1024) :
    shapeCast S8x1x1024
        (addf (Host.dotGeneral (F := Ideal) dot_S8x64_S64x1024_S8x1024_1_0_0_1_n_n none g
            (extractStridedSlice S64x1024 ![1024, 0] W slices_S1152x1024_S64x1024_1024_0))
          (broadcastInDim S8x1024 ![0, 1] bcast_S1x1024_S8x1024_0_1 (broadcastInDim S1x1024 ![1] bcast_S1024_S1x1024_1 bias)))
        shapeCasts_S8x1024_S8x1x1024 (ix3 b 0 a)
      = Cert.Attn.gbias g W bias b a := by
  refine (shapeCast_apply _ shapeCasts_S8x1024_S8x1x1024 (ix3 b 0 a) (ix2 b a) ?_).trans ?_
  · rw [Shape.rowMajor_val_two, Shape.rowMajor_val_three]
    show b.val * 1024 + a.val = (b.val * 1 + 0) * 1024 + a.val
    omega
  · refine (addf_apply _ _ _).trans ?_
    rw [g_rows_apply, bias_rows_apply]
    rfl

/-- The query side's per-batch bias array. -/
theorem gq_bias_apply (c : Dev nD) (b : Fin 8) (a : Fin 1024) :
    (V m c main_v10 : S8x1x1024.Idx → EReal) (ix3 b 0 a)
      = Cert.Attn.gbias (m ((c : Thread nD τ).loc main_arg2)) (m ((c : Thread nD τ).loc main_arg4))
          (m ((c : Thread nD τ).loc main_arg5)) b a := by
  have e0 : (V m c main_v10 : S8x1x1024.Idx → EReal)
      = shapeCast S8x1x1024
          (addf (Host.dotGeneral (F := Ideal) (φ₁ := .f32) (φ₂ := .f32) dot_S8x64_S64x1024_S8x1024_1_0_0_1_n_n none (m ((c : Thread nD τ).loc main_arg2))
              (extractStridedSlice S64x1024 ![1024, 0] (m ((c : Thread nD τ).loc main_arg4)) slices_S1152x1024_S64x1024_1024_0))
            (broadcastInDim S8x1024 ![0, 1] bcast_S1x1024_S8x1024_0_1
              (broadcastInDim S1x1024 ![1] bcast_S1024_S1x1024_1 (m ((c : Thread nD τ).loc main_arg5)))))
          shapeCasts_S8x1024_S8x1x1024 := by
    show StableHlo.after hostOps0 (fun b => m (c, b)) (Proc.devRef .tc main_v10) = _
    after_results_simp <;> rfl
  exact (congrFun e0 _).trans (bias_array_apply _ _ _ b a)

/-- The key side's per-batch bias array. -/
theorem gk_bias_apply (c : Dev nD) (b : Fin 8) (a : Fin 1024) :
    (V m c main_v15 : S8x1x1024.Idx → EReal) (ix3 b 0 a)
      = Cert.Attn.gbias (m ((c : Thread nD τ).loc main_arg2)) (m ((c : Thread nD τ).loc main_arg6))
          (m ((c : Thread nD τ).loc main_arg7)) b a := by
  have e0 : (V m c main_v15 : S8x1x1024.Idx → EReal)
      = shapeCast S8x1x1024
          (addf (Host.dotGeneral (F := Ideal) (φ₁ := .f32) (φ₂ := .f32) dot_S8x64_S64x1024_S8x1024_1_0_0_1_n_n none (m ((c : Thread nD τ).loc main_arg2))
              (extractStridedSlice S64x1024 ![1024, 0] (m ((c : Thread nD τ).loc main_arg6)) slices_S1152x1024_S64x1024_1024_0))
            (broadcastInDim S8x1024 ![0, 1] bcast_S1x1024_S8x1024_0_1
              (broadcastInDim S1x1024 ![1] bcast_S1024_S1x1024_1 (m ((c : Thread nD τ).loc main_arg7)))))
          shapeCasts_S8x1024_S8x1x1024 := by
    show StableHlo.after hostOps0 (fun b => m (c, b)) (Proc.devRef .tc main_v15) = _
    after_results_simp <;> rfl
  exact (congrFun e0 _).trans (bias_array_apply _ _ _ b a)

/-- The rows of the query weight matrix that meet `h`. -/
theorem wqh_apply (c : Dev nD) (e : Fin 1024) (a : Fin 1024) :
    (V m c main_v16 : S1024x1024.Idx → EReal) (ix2 e a)
      = (m ((c : Thread nD τ).loc main_arg4) : S1152x1024.Idx → EReal) (ix2 (Cert.Attn.rowH e) a) := by
  have e0 : (V m c main_v16 : S1024x1024.Idx → EReal)
      = truncf (F := Ideal) .bf16 (extractStridedSlice S1024x1024 ![0, 0] (m ((c : Thread nD τ).loc main_arg4))
          slices_S1152x1024_S1024x1024_0_0) bitsLt_bf16_f32 := by
    show StableHlo.after hostOps0 (fun b => m (c, b)) (Proc.devRef .tc main_v16) = _
    after_results_simp <;> rfl
  refine (congrFun e0 _).trans ?_
  exact piece_apply 0 _ _ _ e a (Cert.Attn.rowH e) (by show e.val = 0 + e.val; omega)

/-- The rows of the key weight matrix that meet `h`. -/
theorem wkh_apply (c : Dev nD) (e : Fin 1024) (a : Fin 1024) :
    (V m c main_v17 : S1024x1024.Idx → EReal) (ix2 e a)
      = (m ((c : Thread nD τ).loc main_arg6) : S1152x1024.Idx → EReal) (ix2 (Cert.Attn.rowH e) a) := by
  have e0 : (V m c main_v17 : S1024x1024.Idx → EReal)
      = truncf (F := Ideal) .bf16 (extractStridedSlice S1024x1024 ![0, 0] (m ((c : Thread nD τ).loc main_arg6))
          slices_S1152x1024_S1024x1024_0_0) bitsLt_bf16_f32 := by
    show StableHlo.after hostOps0 (fun b => m (c, b)) (Proc.devRef .tc main_v17) = _
    after_results_simp <;> rfl
  refine (congrFun e0 _).trans ?_
  exact piece_apply 0 _ _ _ e a (Cert.Attn.rowH e) (by show e.val = 0 + e.val; omega)

/-- The rows of the query weight matrix that meet `l`. -/
theorem wql_apply (c : Dev nD) (e : Fin 64) (a : Fin 1024) :
    (V m c main_v18 : S64x1024.Idx → EReal) (ix2 e a)
      = (m ((c : Thread nD τ).loc main_arg4) : S1152x1024.Idx → EReal) (ix2 (Cert.Attn.rowL e) a) := by
  have e0 : (V m c main_v18 : S64x1024.Idx → EReal)
      = truncf (F := Ideal) .bf16 (extractStridedSlice S64x1024 ![1088, 0] (m ((c : Thread nD τ).loc main_arg4))
          slices_S1152x1024_S64x1024_1088_0) bitsLt_bf16_f32 := by
    show StableHlo.after hostOps0 (fun b => m (c, b)) (Proc.devRef .tc main_v18) = _
    after_results_simp <;> rfl
  refine (congrFun e0 _).trans ?_
  exact piece_apply 1088 _ _ _ e a (Cert.Attn.rowL e) rfl

/-- The rows of the key weight matrix that meet `l`. -/
theorem wkl_apply (c : Dev nD) (e : Fin 64) (a : Fin 1024) :
    (V m c main_v19 : S64x1024.Idx → EReal) (ix2 e a)
      = (m ((c : Thread nD τ).loc main_arg6) : S1152x1024.Idx → EReal) (ix2 (Cert.Attn.rowL e) a) := by
  have e0 : (V m c main_v19 : S64x1024.Idx → EReal)
      = truncf (F := Ideal) .bf16 (extractStridedSlice S64x1024 ![1088, 0] (m ((c : Thread nD τ).loc main_arg6))
          slices_S1152x1024_S64x1024_1088_0) bitsLt_bf16_f32 := by
    show StableHlo.after hostOps0 (fun b => m (c, b)) (Proc.devRef .tc main_v19) = _
    after_results_simp <;> rfl
  refine (congrFun e0 _).trans ?_
  exact piece_apply 1088 _ _ _ e a (Cert.Attn.rowL e) rfl

/-- The mask under a trailing unit axis. -/
theorem mask3_apply (c : Dev nD) (b : Fin 8) (s : Fin 4096) :
    (V m c main_v20 : S8x4096x1.Idx → BitVec 32) (ix3 b s 0)
      = (m ((c : Thread nD τ).loc main_arg1) : S8x4096.Idx → BitVec 32) (ix2 b s) := by
  have e0 : (V m c main_v20 : S8x4096x1.Idx → BitVec 32)
      = shapeCast S8x4096x1 (m ((c : Thread nD τ).loc main_arg1)) shapeCasts_S8x4096_S8x4096x1 := by
    show StableHlo.after hostOps0 (fun b => m (c, b)) (Proc.devRef .tc main_v20) = _
    after_results_simp <;> rfl
  refine (congrFun e0 _).trans ?_
  refine shapeCast_apply _ _ _ (ix2 b s) ?_
  rw [Shape.rowMajor_val_two, Shape.rowMajor_val_three]
  show b.val * 4096 + s.val = (b.val * 4096 + s.val) * 1 + 0
  omega

end Cert.KernelIdeal.HostPrefix

end
-- ==== Proof.KernelValue.lean ====
/-
  The kernel's result array as one function of the arguments.

  Grid point `t` handles batch `b = index t 0` and the 1024 sequence positions of tile `index t 1`. Its `h`, `l`
  and mask blocks are the rows `1024 · tile + r` of batch `b`, its two bias rows are batch `b`'s, and its four
  weight blocks are the whole pieces; so row `r` of the block it writes back is the specification's value at token
  `(b, 1024 · tile + r)`. The 8 × 4 blocks tile the [8, 4096, 1] output array, so the array ends holding the
  specification's values everywhere; the host line after the region drops the trailing unit axis.
-/
import proofs.«142428_j89232240541956_1_alg».proof.Proof.Gen.KernelIdeal.Frame
import proofs.«142428_j89232240541956_1_alg».proof.Proof.KernelBody
import proofs.«142428_j89232240541956_1_alg».proof.Proof.HostPrefix
import proofs.«142428_j89232240541956_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided once over the 32 grid points: the `h`, `l`, mask and output windows move
    together on the batch and tile axes; the bias windows follow the batch only; the weight windows stay. -/
theorem idx_facts : ∀ t : Fin cfg0.N,
    win0_0.index t (0 : Fin 3) = win0_9.index t (0 : Fin 3) ∧ win0_0.index t (1 : Fin 3) = win0_9.index t (1 : Fin 3) ∧ win0_0.index t (2 : Fin 3) = 0
    ∧ win0_1.index t (0 : Fin 3) = win0_9.index t (0 : Fin 3) ∧ win0_1.index t (1 : Fin 3) = win0_9.index t (1 : Fin 3) ∧ win0_1.index t (2 : Fin 3) = 0
    ∧ win0_2.index t (0 : Fin 3) = win0_9.index t (0 : Fin 3) ∧ win0_2.index t (1 : Fin 3) = 0 ∧ win0_2.index t (2 : Fin 3) = 0
    ∧ win0_3.index t (0 : Fin 3) = win0_9.index t (0 : Fin 3) ∧ win0_3.index t (1 : Fin 3) = 0 ∧ win0_3.index t (2 : Fin 3) = 0
    ∧ win0_4.index t (0 : Fin 3) = win0_9.index t (0 : Fin 3) ∧ win0_4.index t (1 : Fin 3) = win0_9.index t (1 : Fin 3) ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) ≤ 7 ∧ win0_9.index t (1 : Fin 3) ≤ 3 ∧ win0_9.index t (2 : Fin 3) = 0 :=
  (by decide +kernel : ∀ t : Fin grid0.N, _)

/-- Every (batch, tile) pair is some grid point's. -/
theorem idx_onto : ∀ (q0 : Fin 8) (q1 : Fin 4), ∃ t : Fin cfg0.N, win0_9.index t = ![q0.val, q1.val, 0] :=
  (by decide +kernel : ∀ (q0 : Fin 8) (q1 : Fin 4), ∃ t : Fin grid0.N, win0_9.index t = ![q0.val, q1.val, 0])

/-! ## Each window's block at a point, as rows of its array -/

/-- The `h` block at `t`: batch `b`, rows `1024 · tile + r`. -/
theorem blk0_apply (c : Dev nD) (t : Fin cfg0.N) (r : Fin 1024) (e : Fin 1024) (b : Fin 8) (s : Fin 4096)
    (hb : b.val = win0_9.index t (0 : Fin 3)) (hs : s.val = win0_9.index t (1 : Fin 3) * 1024 + r.val) :
    (iblk m c 0 t : Vec Ideal S1x1024x1024 .f32) (ix3 0 r e) = (V m c main_arg0 : S8x4096x1024.Idx → EReal) (ix3 b s e) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = s.val; omega
  | ⟨2, _⟩ => show win0_0.index t (2 : Fin 3) * 1024 + 1 * e.val = e.val; omega

/-- The `l` block at `t`. -/
theorem blk1_apply (c : Dev nD) (t : Fin cfg0.N) (r : Fin 1024) (e : Fin 64) (b : Fin 8) (s : Fin 4096)
    (hb : b.val = win0_9.index t (0 : Fin 3)) (hs : s.val = win0_9.index t (1 : Fin 3) * 1024 + r.val) :
    (iblk m c 1 t : Vec Ideal S1x1024x64 .f32) (ix3 0 r e) = (V m c main_arg3 : S8x4096x64.Idx → EReal) (ix3 b s e) := by
  obtain ⟨-, -, -, e0, e1, e2, -⟩ := idx_facts t
  unfold iblk
  rw [View.read_apply]
  show V m c main_arg3 _ = V m c main_arg3 _
  congr 1
  funext a
  apply Fin.ext
  match a with
  | ⟨0, _⟩ => show win0_1.index t (0 : Fin 3) * 1 + 1 * 0 = b.val; omega
  | ⟨1, _⟩ => show win0_1.index t (1 : Fin 3) * 1024 + 1 * r.val = s.val; omega
  | ⟨2, _⟩ => show win0_1.index t (2 : Fin 3) * 64 + 1 * e.val = e.val; omega

/-- The query side's bias row at `t`: batch `b`'s. -/
theorem blk2_apply (c : Dev nD) (t : Fin cfg0.N) (a : Fin 1024) (b : Fin 8)
    (hb : b.val = win0_9.index t (0 : Fin 3)) :
    (iblk m c 2 t : Vec Ideal S1x1x1024 .f32) (ix3 0 0 a) = (V m c main_v10 : S8x1x1024.Idx → EReal) (ix3 b 0 a) := by
  obtain ⟨-, -, -, -, -, -, e0, e1, e2, -⟩ := idx_facts t
  unfold iblk
  rw [View.read_apply]
  show V m c main_v10 _ = V m c main_v10 _
  congr 1
  funext x
  apply Fin.ext
  match x with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 1024 + 1 * a.val = a.val; omega

/-- The key side's bias row at `t`. -/
theorem blk3_apply (c : Dev nD) (t : Fin cfg0.N) (a : Fin 1024) (b : Fin 8)
    (hb : b.val = win0_9.index t (0 : Fin 3)) :
    (iblk m c 3 t : Vec Ideal S1x1x1024 .f32) (ix3 0 0 a) = (V m c main_v15 : S8x1x1024.Idx → EReal) (ix3 b 0 a) := by
  obtain ⟨-, -, -, -, -, -, -, -, -, e0, e1, e2, -⟩ := idx_facts t
  unfold iblk
  rw [View.read_apply]
  show V m c main_v15 _ = V m c main_v15 _
  congr 1
  funext x
  apply Fin.ext
  match x with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 1024 + 1 * a.val = a.val; omega

/-- The mask block at `t`. -/
theorem blk4_apply (c : Dev nD) (t : Fin cfg0.N) (r : Fin 1024) (b : Fin 8) (s : Fin 4096)
    (hb : b.val = win0_9.index t (0 : Fin 3)) (hs : s.val = win0_9.index t (1 : Fin 3) * 1024 + r.val) :
    (iblk m c 4 t : Vec Ideal S1x1024x1 .i32) (ix3 0 r 0) = (V m c main_v20 : S8x4096x1.Idx → BitVec 32) (ix3 b s 0) := by
  obtain ⟨-, -, -, -, -, -, -, -, -, -, -, -, e0, e1, e2, -⟩ := idx_facts t
  unfold iblk
  rw [View.read_apply]
  show V m c main_v20 _ = V m c main_v20 _
  congr 1
  funext x
  apply Fin.ext
  match x with
  | ⟨0, _⟩ => show win0_4.index t (0 : Fin 3) * 1 + 1 * 0 = b.val; omega
  | ⟨1, _⟩ => show win0_4.index t (1 : Fin 3) * 1024 + 1 * r.val = s.val; omega
  | ⟨2, _⟩ => show win0_4.index t (2 : Fin 3) * 1 + 1 * 0 = 0; omega

/-- The four weight blocks are the whole pieces. -/
theorem blk5_apply (c : Dev nD) (t : Fin cfg0.N) (e : Fin 1024) (a : Fin 1024) :
    (iblk m c 5 t : Vec Ideal S1024x1024 .bf16) (ix2 e a) = (V m c main_v16 : S1024x1024.Idx → EReal) (ix2 e a) := by
  obtain ⟨-, -, -, -, -, -, -, -, -, -, -, -, -, -, -, e0, e1, -⟩ := idx_facts t
  unfold iblk
  rw [View.read_apply]
  show V m c main_v16 _ = V m c main_v16 _
  congr 1
  funext x
  apply Fin.ext
  match x with
  | ⟨0, _⟩ => show win0_5.index t (0 : Fin 2) * 1024 + 1 * e.val = e.val; omega
  | ⟨1, _⟩ => show win0_5.index t (1 : Fin 2) * 1024 + 1 * a.val = a.val; omega

theorem blk6_apply (c : Dev nD) (t : Fin cfg0.N) (e : Fin 1024) (a : Fin 1024) :
    (iblk m c 6 t : Vec Ideal S1024x1024 .bf16) (ix2 e a) = (V m c main_v17 : S1024x1024.Idx → EReal) (ix2 e a) := by
  obtain ⟨-, -, -, -, -, -, -, -, -, -, -, -, -, -, -, -, -, e0, e1, -⟩ := idx_facts t
  unfold iblk
  rw [View.read_apply]
  show V m c main_v17 _ = V m c main_v17 _
  congr 1
  funext x
  apply Fin.ext
  match x with
  | ⟨0, _⟩ => show win0_6.index t (0 : Fin 2) * 1024 + 1 * e.val = e.val; omega
  | ⟨1, _⟩ => show win0_6.index t (1 : Fin 2) * 1024 + 1 * a.val = a.val; omega

theorem blk7_apply (c : Dev nD) (t : Fin cfg0.N) (e : Fin 64) (a : Fin 1024) :
    (iblk m c 7 t : Vec Ideal S64x1024 .bf16) (ix2 e a) = (V m c main_v18 : S64x1024.Idx → EReal) (ix2 e a) := by
  obtain ⟨-, -, -, -, -, -, -, -, -, -, -, -, -, -, -, -, -, -, -, e0, e1, -⟩ := idx_facts t
  unfold iblk
  rw [View.read_apply]
  show V m c main_v18 _ = V m c main_v18 _
  congr 1
  funext x
  apply Fin.ext
  match x with
  | ⟨0, _⟩ => show win0_7.index t (0 : Fin 2) * 64 + 1 * e.val = e.val; omega
  | ⟨1, _⟩ => show win0_7.index t (1 : Fin 2) * 1024 + 1 * a.val = a.val; omega

theorem blk8_apply (c : Dev nD) (t : Fin cfg0.N) (e : Fin 64) (a : Fin 1024) :
    (iblk m c 8 t : Vec Ideal S64x1024 .bf16) (ix2 e a) = (V m c main_v19 : S64x1024.Idx → EReal) (ix2 e a) := by
  obtain ⟨-, -, -, -, -, -, -, -, -, -, -, -, -, -, -, -, -, -, -, -, -, e0, e1, -⟩ := idx_facts t
  unfold iblk
  rw [View.read_apply]
  show V m c main_v19 _ = V m c main_v19 _
  congr 1
  funext x
  apply Fin.ext
  match x with
  | ⟨0, _⟩ => show win0_8.index t (0 : Fin 2) * 64 + 1 * e.val = e.val; omega
  | ⟨1, _⟩ => show win0_8.index t (1 : Fin 2) * 1024 + 1 * a.val = a.val; omega

/-! ## What a point writes back -/

section Pure

/-- A pre-activation inside a block is the specification's, once the block's rows, bias row and weight pieces are
    known to be the arrays' rows. -/
theorem blockLin_eq_lin (x0 : Vec Ideal S1x1024x1024 .f32) (x1 : Vec Ideal S1x1024x64 .f32) (xb : Vec Ideal S1x1x1024 .f32)
    (wh : Vec Ideal S1024x1024 .bf16) (wl : Vec Ideal S64x1024 .bf16)
    (h : (⟨3, ![8, 4096, 1024]⟩ : Shape).Idx → EReal) (g : (⟨2, ![8, 64]⟩ : Shape).Idx → EReal) (l : (⟨3, ![8, 4096, 64]⟩ : Shape).Idx → EReal) (W : (⟨2, ![1152, 1024]⟩ : Shape).Idx → EReal) (bias : (⟨1, ![1024]⟩ : Shape).Idx → EReal)
    (r : Fin 1024) (b : Fin 8) (s : Fin 4096) (a : Fin 1024)
    (h0 : ∀ e : Fin 1024, x0 (ix3 0 r e) = h (ix3 b s e)) (h1 : ∀ e : Fin 64, x1 (ix3 0 r e) = l (ix3 b s e))
    (hbias : xb (ix3 0 0 a) = Cert.Attn.gbias g W bias b a)
    (hwh : ∀ e : Fin 1024, wh (ix2 e a) = W (ix2 (Cert.Attn.rowH e) a))
    (hwl : ∀ e : Fin 64, wl (ix2 e a) = W (ix2 (Cert.Attn.rowL e) a)) :
    Body.blockLin x0 x1 xb wh wl r a = Cert.Attn.lin h g l W bias b s a := by
  unfold Body.blockLin Cert.Attn.lin
  simp only [h0, h1, hbias, hwh, hwl]

/-- A row of a stored block is the specification's value at a token, once its mask word and its two
    pre-activations are the token's. -/
theorem select_eq_tokenValue (x0 : Vec Ideal S1x1024x1024 .f32) (x1 : Vec Ideal S1x1024x64 .f32)
    (x2 : Vec Ideal S1x1x1024 .f32) (x3 : Vec Ideal S1x1x1024 .f32) (x4 : Vec Ideal S1x1024x1 .i32)
    (x5 : Vec Ideal S1024x1024 .bf16) (x6 : Vec Ideal S1024x1024 .bf16) (x7 : Vec Ideal S64x1024 .bf16)
    (x8 : Vec Ideal S64x1024 .bf16)
    (h : (⟨3, ![8, 4096, 1024]⟩ : Shape).Idx → EReal) (mask : (⟨2, ![8, 4096]⟩ : Shape).Idx → BitVec 32) (g : (⟨2, ![8, 64]⟩ : Shape).Idx → EReal) (l : (⟨3, ![8, 4096, 64]⟩ : Shape).Idx → EReal)
    (Wq : (⟨2, ![1152, 1024]⟩ : Shape).Idx → EReal) (bq : (⟨1, ![1024]⟩ : Shape).Idx → EReal) (Wk : (⟨2, ![1152, 1024]⟩ : Shape).Idx → EReal) (bk : (⟨1, ![1024]⟩ : Shape).Idx → EReal)
    (r : Fin 1024) (b : Fin 8) (s : Fin 4096)
    (hmask : x4 (ix3 0 r 0) = mask (ix2 b s))
    (hq : ∀ a : Fin 1024, Body.blockLin x0 x1 x2 x5 x7 r a = Cert.Attn.lin h g l Wq bq b s a)
    (hk : ∀ a : Fin 1024, Body.blockLin x0 x1 x3 x6 x8 r a = Cert.Attn.lin h g l Wk bk b s a) :
    Scalar.select (IntOp.cmpi .eq (x4 (ix3 0 r 0)) 1#32) (Ideal.ofBits .f32 0xCE6E6B28#32)
        ((∑ a : Fin 1024, max (Body.blockLin x0 x1 x2 x5 x7 r a) 0 * max (Body.blockLin x0 x1 x3 x6 x8 r a) 0)
          * Ideal.ofBits .f32 0x3D000000#32)
      = Cert.Attn.tokenValue h mask g l Wq bq Wk bk b s := by
  unfold Cert.Attn.tokenValue Cert.Attn.score
  rw [hmask]
  simp only [hq, hk]

end Pure

/-- Row `r` of the block point `t` writes back is the specification's value at the token it stands for. -/
theorem row_eq (c : Dev nD) (t : Fin cfg0.N) (r : Fin 1024) (b : Fin 8) (s : Fin 4096)
    (hb : b.val = win0_9.index t (0 : Fin 3)) (hs : s.val = win0_9.index t (1 : Fin 3) * 1024 + r.val) :
    out0_9 (F := Ideal) (iblk m c 0 t) (iblk m c 1 t) (iblk m c 2 t) (iblk m c 3 t) (iblk m c 4 t) (iblk m c 5 t) (iblk m c 6 t) (iblk m c 7 t) (iblk m c 8 t) (ix3 0 r 0)
      = Cert.Attn.tokenValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s :=
  (Body.out_block_apply (iblk m c 0 t) (iblk m c 1 t) (iblk m c 2 t) (iblk m c 3 t) (iblk m c 4 t) (iblk m c 5 t) (iblk m c 6 t) (iblk m c 7 t) (iblk m c 8 t) r).trans
    (select_eq_tokenValue (iblk m c 0 t) (iblk m c 1 t) (iblk m c 2 t) (iblk m c 3 t) (iblk m c 4 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r b s
      ((blk4_apply m c t r b s hb hs).trans (HostPrefix.mask3_apply m c b s))
      (fun a => blockLin_eq_lin (iblk m c 0 t) (iblk m c 1 t) (iblk m c 2 t) (iblk m c 5 t) (iblk m c 7 t)
        (m ((c : Thread nD τ).loc main_arg0)) (m ((c : Thread nD τ).loc main_arg2)) (m ((c : Thread nD τ).loc main_arg3)) (m ((c : Thread nD τ).loc main_arg4)) (m ((c : Thread nD τ).loc main_arg5)) r b s a
        (fun e => (blk0_apply m c t r e b s hb hs).trans (congrFun (V_main_arg0 m c) (ix3 b s e)))
        (fun e => (blk1_apply m c t r e b s hb hs).trans (congrFun (V_main_arg3 m c) (ix3 b s e)))
        ((blk2_apply m c t a b hb).trans (HostPrefix.gq_bias_apply m c b a))
        (fun e => (blk5_apply m c t e a).trans (HostPrefix.wqh_apply m c e a))
        (fun e => (blk7_apply m c t e a).trans (HostPrefix.wql_apply m c e a)))
      (fun a => blockLin_eq_lin (iblk m c 0 t) (iblk m c 1 t) (iblk m c 3 t) (iblk m c 6 t) (iblk m c 8 t)
        (m ((c : Thread nD τ).loc main_arg0)) (m ((c : Thread nD τ).loc main_arg2)) (m ((c : Thread nD τ).loc main_arg3)) (m ((c : Thread nD τ).loc main_arg6)) (m ((c : Thread nD τ).loc main_arg7)) r b s a
        (fun e => (blk0_apply m c t r e b s hb hs).trans (congrFun (V_main_arg0 m c) (ix3 b s e)))
        (fun e => (blk1_apply m c t r e b s hb hs).trans (congrFun (V_main_arg3 m c) (ix3 b s e)))
        ((blk3_apply m c t a b hb).trans (HostPrefix.gk_bias_apply m c b a))
        (fun e => (blk6_apply m c t e a).trans (HostPrefix.wkh_apply m c e a))
        (fun e => (blk8_apply m c t e a).trans (HostPrefix.wkl_apply m c e a))))

/-- The output array's values, as the region leaves them: the specification's, under a trailing unit axis. -/
abbrev G3 (c : Dev nD) : S8x4096x1.Idx → EReal :=
  Cert.Attn.result3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- WHAT POINT `t` WRITES BACK is block `t` of `G3`. -/
theorem flushed9_eq (c : Dev nD) (t : Fin cfg0.N) :
    (dats m 0 c).flushed 9 t = ((cfg0.win 9).blk t).view.read (Elt Ideal) (G3 m c) := by
  show (cfg0.win 9).cut (grid0.coords t) ((dats m 0 c).after 9 t) = _
  rw [after0_9]
  funext j
  obtain ⟨u, r, z, rfl⟩ : ∃ (u : Fin 1) (r : Fin 1024) (z : Fin 1), j = ix3 u r z := ⟨j 0, j 1, j 2, eq_ix3 j⟩
  obtain rfl : u = 0 := Subsingleton.elim _ _
  obtain rfl : z = 0 := Subsingleton.elim _ _
  obtain ⟨-, -, -, -, -, -, -, -, -, -, -, -, -, -, -, -, -, -, -, -, -, -, -, h0, h1, h2⟩ := idx_facts t
  have hb : win0_9.index t (0 : Fin 3) * 1 + 1 * 0 < 8 := by omega
  have hs : win0_9.index t (1 : Fin 3) * 1024 + 1 * r.val < 4096 := by have := r.isLt; omega
  show out0_9 (F := Ideal) (iblk m c 0 t) (iblk m c 1 t) (iblk m c 2 t) (iblk m c 3 t) (iblk m c 4 t) (iblk m c 5 t) (iblk m c 6 t) (iblk m c 7 t) (iblk m c 8 t) (ix3 0 r 0)
      = Cert.Attn.tokenValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨win0_9.index t (0 : Fin 3) * 1 + 1 * 0, hb⟩ ⟨win0_9.index t (1 : Fin 3) * 1024 + 1 * r.val, hs⟩
  exact row_eq m c t r _ _ (by show win0_9.index t (0 : Fin 3) * 1 + 1 * 0 = _; omega) (by show win0_9.index t (1 : Fin 3) * 1024 + 1 * r.val = _; omega)

/-! ## The array after the run -/

/-- An index of the output array is in point `t`'s block iff each coordinate is in the block's range on its axis. -/
theorem mem_blk9 (t : Fin cfg0.N) (i : S8x4096x1.Idx) :
    i ∈ ((cfg0.win 9).blk t).view.set ↔ ∀ a : Fin 3, win0_9.index t a * S1x1024x1.size a ≤ (i a).val ∧ (i a).val < win0_9.index t a * S1x1024x1.size a + S1x1024x1.size a := by
  show i ∈ ((View.whole main_v21).slice (win0_9.rect t)).set ↔ _
  rw [View.set_slice_whole, Rect.mem_set_unit]
  exact Iff.rfl

/-- The 8 × 4 blocks tile the output array: every index is in the block of the point of its batch and tile. -/
theorem covered9 (i : S8x4096x1.Idx) :
    ∃ t : Fin cfg0.N, (cfg0.win 9).flush t = true ∧ i ∈ ((cfg0.win 9).blk t).view.set := by
  have hi0 : (i 0).val < 8 := (i 0).isLt
  have hi1 : (i 1).val < 4096 := (i 1).isLt
  have hi2 : (i 2).val < 1 := (i 2).isLt
  obtain ⟨t, ht⟩ := idx_onto ⟨(i 0).val, hi0⟩ ⟨(i 1).val / 1024, by omega⟩
  have q0 : win0_9.index t (0 : Fin 3) = (i 0).val := congrFun ht 0
  have q1 : win0_9.index t (1 : Fin 3) = (i 1).val / 1024 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 1 ≤ (i 2).val ∧ (i 2).val < win0_9.index t (2 : Fin 3) * 1 + 1; omega

/-- THE OUTPUT ARRAY after the run holds the specification's values. -/
theorem final9 (c : Dev nD) : (dats m 0 c).arrAt 9 cfg0.N = G3 m c :=
  (dats m 0 c).arrAt_eq_of_cover 9 (G3 m c) (fun t _ => flushed9_eq m c t) covered9

/-! ## The host line after the region, and the run -/

/-- An `[a, b, 1]` array cast to `[a, b]` reads, at `(i, j)`, the operand at `(i, j, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- Dropping the trailing unit axis of the output array gives the specification's result array. -/
theorem tail_eq (c : Dev nD) :
    Pipeline.afterTail₀ cfgs (dats m) 0 (V0 m) [hostOps1] c main_v22
      = Cert.Attn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v21)
      = G3 m c :=
    (Pipeline.withArrays_arr spec0 launch0.win.arr_inj c _ _ 9).trans (final9 m c)
  funext i
  obtain ⟨b, s, rfl⟩ : ∃ (b : Fin 8) (s : Fin 4096), i = ix2 b s := ⟨i 0, i 1, eq_ix2 i⟩
  show shapeCast S8x4096 (Pipeline.withArrays (cfgs 0).spec c (V0 m c) (fun w => (dats m 0 c).arrAt w (cfgs 0).N) (Proc.devRef .tc main_v21)) shapeCasts_S8x4096x1_S8x4096 (ix2 b s) = _
  rw [e]
  exact (shapeCast_ab1_ab_apply (G3 m c) shapeCasts_S8x4096x1_S8x4096 b s).trans rfl

/-- THE KERNEL'S RUN: every weakly fair execution terminates with the result array at the specification's value of
    the arguments, and the arguments unchanged. -/
theorem run : θ_run defs (onTc (τ := τ) (main (F := Ideal))) ⟨m, fun _ => 0, ρ⟩ (fun r => ∀ c : Dev nD,
      r.2.mem ((c.tc : Thread nD τ).loc main_v22) = Cert.Attn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v22 (Pipeline.mem_restRefs_of main_v22 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.KValue

end
-- ==== Proof.RefValue.lean ====
/-
  The reference's result is the specification.

  Index by index: the reference joins `h`, `g` spread over the sequence axis, and `l` into rows of 1152 entries,
  contracts each row with the columns of a weight matrix and adds the bias; that is the specification's
  pre-activation in three pieces, by splitting the sum at 1024 and 1088 (`Cert.Attn.lin_eq_whole`). It divides the
  sum of products by √1024 = 32 where the specification multiplies by 2⁻⁵: the same on every extended real.
-/
import proofs.«142428_j89232240541956_1_alg».proof.Proof.Gen.ReferenceIdeal.Read
import proofs.«142428_j89232240541956_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The constants -/

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `2⁻⁵` denotes the real 1/32. -/
theorem ofBits_inv32 : Ideal.ofBits .f32 0x3D000000#32 = ((1 / 32 : ℝ) : EReal) := by
  simp [Ideal.ofBits, Ideal.ieee, -EReal.coe_mul]; norm_num

/-- √1024 = 32 on the extended reals. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-! ## The joined row at its three stretches -/

/-- On its first 1024 entries the joined row reads `h`. -/
theorem v2_H (x0 : (⟨S8x4096x1024, .f32⟩ : BufTy).Contents (Elt Ideal)) (x2 : (⟨S8x64, .f32⟩ : BufTy).Contents (Elt Ideal))
    (x3 : (⟨S8x4096x64, .f32⟩ : BufTy).Contents (Elt Ideal)) (b : Fin 8) (s : Fin 4096) (e : Fin 1024) :
    Read.val_main_v2 (F := Ideal) x0 x2 x3 (ix3 b s (Cert.Attn.rowH e)) = x0 (ix3 b s e) := by
  unfold Read.val_main_v2
  refine concatenate_apply_piece (2 : Fin S8x4096x1152.rank) _ _ (ix3 b s (Cert.Attn.rowH e)) 0 (by show 0 < 3; omega)
    S8x4096x1024 x0 rfl rfl 0 rfl (ix3 b s e) ?_ ?_
  · intro c hc
    match c with
    | ⟨0, _⟩ => rfl
    | ⟨1, _⟩ => rfl
    | ⟨2, _⟩ => exact absurd rfl hc
  · show 0 + e.val = e.val
    omega

/-- On its next 64 entries the joined row reads `g`, whatever the sequence position. -/
theorem v2_G (x0 : (⟨S8x4096x1024, .f32⟩ : BufTy).Contents (Elt Ideal)) (x2 : (⟨S8x64, .f32⟩ : BufTy).Contents (Elt Ideal))
    (x3 : (⟨S8x4096x64, .f32⟩ : BufTy).Contents (Elt Ideal)) (b : Fin 8) (s : Fin 4096) (e : Fin 64) :
    Read.val_main_v2 (F := Ideal) x0 x2 x3 (ix3 b s (Cert.Attn.rowG e)) = x2 (ix2 b e) := by
  unfold Read.val_main_v2
  refine (concatenate_apply_piece (2 : Fin S8x4096x1152.rank) _ _ (ix3 b s (Cert.Attn.rowG e)) 1 (by show 1 < 3; omega)
    S8x4096x64 (Read.val_main_v1 (F := Ideal) x2) rfl rfl 1024 rfl (ix3 b s e) ?_ ?_).trans ?_
  · intro c hc
    match c with
    | ⟨0, _⟩ => rfl
    | ⟨1, _⟩ => rfl
    | ⟨2, _⟩ => exact absurd rfl hc
  · rfl
  · rw [Read.val_main_v1_apply, Read.val_main_v0_apply]
    exact congrArg x2 (funext fun a => by match a with | ⟨0, _⟩ => rfl | ⟨1, _⟩ => rfl)

/-- On its last 64 entries the joined row reads `l`. -/
theorem v2_L (x0 : (⟨S8x4096x1024, .f32⟩ : BufTy).Contents (Elt Ideal)) (x2 : (⟨S8x64, .f32⟩ : BufTy).Contents (Elt Ideal))
    (x3 : (⟨S8x4096x64, .f32⟩ : BufTy).Contents (Elt Ideal)) (b : Fin 8) (s : Fin 4096) (e : Fin 64) :
    Read.val_main_v2 (F := Ideal) x0 x2 x3 (ix3 b s (Cert.Attn.rowL e)) = x3 (ix3 b s e) := by
  unfold Read.val_main_v2
  refine concatenate_apply_piece (2 : Fin S8x4096x1152.rank) _ _ (ix3 b s (Cert.Attn.rowL e)) 2 (by show 2 < 3; omega)
    S8x4096x64 x3 rfl rfl 1088 rfl (ix3 b s e) ?_ ?_
  · intro c hc
    match c with
    | ⟨0, _⟩ => rfl
    | ⟨1, _⟩ => rfl
    | ⟨2, _⟩ => exact absurd rfl hc
  · rfl

/-! ## The reference's composed index functions, on indices built from coordinates -/

theorem lidx3 (b : Fin 8) (s : Fin 4096) (a : Fin 1024) (k : Fin 1152) :
    Read.lidx_main_v3 (ix3 b s a) k = ix3 b s k :=
  funext fun c => by match c with | ⟨0, _⟩ => rfl | ⟨1, _⟩ => rfl | ⟨2, _⟩ => rfl

theorem ridx3 (b : Fin 8) (s : Fin 4096) (a : Fin 1024) (k : Fin 1152) :
    Read.ridx_main_v3 (ix3 b s a) k = ix2 k a :=
  funext fun c => by match c with | ⟨0, _⟩ => rfl | ⟨1, _⟩ => rfl

theorem lidx8 (b : Fin 8) (s : Fin 4096) (a : Fin 1024) (k : Fin 1152) :
    Read.lidx_main_v8 (ix3 b s a) k = ix3 b s k :=
  funext fun c => by match c with | ⟨0, _⟩ => rfl | ⟨1, _⟩ => rfl | ⟨2, _⟩ => rfl

theorem ridx8 (b : Fin 8) (s : Fin 4096) (a : Fin 1024) (k : Fin 1152) :
    Read.ridx_main_v8 (ix3 b s a) k = ix2 k a :=
  funext fun c => by match c with | ⟨0, _⟩ => rfl | ⟨1, _⟩ => rfl

theorem bias_idx5 (b : Fin 8) (s : Fin 4096) (a : Fin 1024) :
    Read.idx_main_v4 (Read.idx_main_v5 (ix3 b s a)) = ix1 a :=
  funext fun c => by match c with | ⟨0, _⟩ => rfl

theorem bias_idx10 (b : Fin 8) (s : Fin 4096) (a : Fin 1024) :
    Read.idx_main_v9 (Read.idx_main_v10 (ix3 b s a)) = ix1 a :=
  funext fun c => by match c with | ⟨0, _⟩ => rfl

theorem idx19 (b : Fin 8) (s : Fin 4096) (k : Fin 1024) :
    Read.idx_main_v19 (ix2 b s) k = ix3 b s k :=
  funext fun c => by match c with | ⟨0, _⟩ => rfl | ⟨1, _⟩ => rfl | ⟨2, _⟩ => rfl

/-! ## A pre-activation of the reference is the specification's -/

/-- The query side: the contraction of the joined row with a column of `x4`, plus the bias `x5`. -/
theorem v6_eq (x0 : (⟨S8x4096x1024, .f32⟩ : BufTy).Contents (Elt Ideal)) (x2 : (⟨S8x64, .f32⟩ : BufTy).Contents (Elt Ideal))
    (x3 : (⟨S8x4096x64, .f32⟩ : BufTy).Contents (Elt Ideal)) (x4 : (⟨S1152x1024, .f32⟩ : BufTy).Contents (Elt Ideal))
    (x5 : (⟨S1024, .f32⟩ : BufTy).Contents (Elt Ideal)) (b : Fin 8) (s : Fin 4096) (a : Fin 1024) :
    Read.val_main_v6 (F := Ideal) x0 x2 x3 x4 x5 (ix3 b s a) = Cert.Attn.lin x0 x2 x3 x4 x5 b s a := by
  rw [Read.val_main_v6_apply, Read.val_main_v3_apply, Read.val_main_v5_apply, Read.val_main_v4_apply, Ideal.addf_def,
    bias_idx5]
  refine Eq.trans ?_ (Cert.Attn.lin_eq_whole x0 x2 x3 x4 x5 b s a
    (fun e => Read.val_main_v2 (F := Ideal) x0 x2 x3 (ix3 b s e)) (v2_H x0 x2 x3 b s) (v2_G x0 x2 x3 b s) (v2_L x0 x2 x3 b s))
  refine congrArg (· + x5 (ix1 a)) (Finset.sum_congr rfl fun k _ => ?_)
  rw [lidx3, ridx3]

/-- The key side: the same with `x6` and `x7`. -/
theorem v11_eq (x0 : (⟨S8x4096x1024, .f32⟩ : BufTy).Contents (Elt Ideal)) (x2 : (⟨S8x64, .f32⟩ : BufTy).Contents (Elt Ideal))
    (x3 : (⟨S8x4096x64, .f32⟩ : BufTy).Contents (Elt Ideal)) (x6 : (⟨S1152x1024, .f32⟩ : BufTy).Contents (Elt Ideal))
    (x7 : (⟨S1024, .f32⟩ : BufTy).Contents (Elt Ideal)) (b : Fin 8) (s : Fin 4096) (a : Fin 1024) :
    Read.val_main_v11 (F := Ideal) x0 x2 x3 x6 x7 (ix3 b s a) = Cert.Attn.lin x0 x2 x3 x6 x7 b s a := by
  rw [Read.val_main_v11_apply, Read.val_main_v8_apply, Read.val_main_v10_apply, Read.val_main_v9_apply, Ideal.addf_def,
    bias_idx10]
  refine Eq.trans ?_ (Cert.Attn.lin_eq_whole x0 x2 x3 x6 x7 b s a
    (fun e => Read.val_main_v2 (F := Ideal) x0 x2 x3 (ix3 b s e)) (v2_H x0 x2 x3 b s) (v2_G x0 x2 x3 b s) (v2_L x0 x2 x3 b s))
  refine congrArg (· + x7 (ix1 a)) (Finset.sum_congr rfl fun k _ => ?_)
  rw [lidx8, ridx8]

/-- One term of the score's sum: the product of the two rectified pre-activations. -/
theorem v18_eq (x0 : (⟨S8x4096x1024, .f32⟩ : BufTy).Contents (Elt Ideal)) (x2 : (⟨S8x64, .f32⟩ : BufTy).Contents (Elt Ideal))
    (x3 : (⟨S8x4096x64, .f32⟩ : BufTy).Contents (Elt Ideal)) (x4 : (⟨S1152x1024, .f32⟩ : BufTy).Contents (Elt Ideal))
    (x5 : (⟨S1024, .f32⟩ : BufTy).Contents (Elt Ideal)) (x6 : (⟨S1152x1024, .f32⟩ : BufTy).Contents (Elt Ideal))
    (x7 : (⟨S1024, .f32⟩ : BufTy).Contents (Elt Ideal)) (b : Fin 8) (s : Fin 4096) (a : Fin 1024) :
    Read.val_main_v18 (F := Ideal) x0 x2 x3 x4 x5 x6 x7 (ix3 b s a)
      = max (Cert.Attn.lin x0 x2 x3 x4 x5 b s a) 0 * max (Cert.Attn.lin x0 x2 x3 x6 x7 b s a) 0 := by
  rw [Read.val_main_v18_apply, Read.val_main_v7_apply, Read.val_main_v12_apply, Read.val_main_call0_v0_apply,
    Read.val_main_call1_v0_apply, Read.val_main_call0_cst_apply, Read.val_main_call1_cst_apply, v6_eq, v11_eq,
    Ideal.mulf_def, Ideal.maximumf_def, Ideal.maximumf_def, Ideal.ofBits_def, Ideal.ofBits_zero_f32]

/-- The reference's last stage is the specification's result array. -/
theorem ref_result (x0 : (⟨S8x4096x1024, .f32⟩ : BufTy).Contents (Elt Ideal)) (x1 : (⟨S8x4096, .i32⟩ : BufTy).Contents (Elt Ideal))
    (x2 : (⟨S8x64, .f32⟩ : BufTy).Contents (Elt Ideal)) (x3 : (⟨S8x4096x64, .f32⟩ : BufTy).Contents (Elt Ideal))
    (x4 : (⟨S1152x1024, .f32⟩ : BufTy).Contents (Elt Ideal)) (x5 : (⟨S1024, .f32⟩ : BufTy).Contents (Elt Ideal))
    (x6 : (⟨S1152x1024, .f32⟩ : BufTy).Contents (Elt Ideal)) (x7 : (⟨S1024, .f32⟩ : BufTy).Contents (Elt Ideal)) :
    Cert.ReferenceIdeal.Read.val_main_v25 (F := Ideal) x0 x1 x2 x3 x4 x5 x6 x7
      = Cert.Attn.result x0 x1 x2 x3 x4 x5 x6 x7 := by
  funext i
  obtain ⟨b, s, rfl⟩ : ∃ (b : Fin 8) (s : Fin 4096), i = ix2 b s := ⟨i 0, i 1, eq_ix2 i⟩
  show _ = Cert.Attn.tokenValue x0 x1 x2 x3 x4 x5 x6 x7 b s
  rw [Read.val_main_v25_apply, Read.val_main_v24_apply, Read.val_main_v23_apply, Read.val_main_c_apply,
    Read.val_main_call3_v0_apply, Read.val_main_cst_1_apply, Read.val_main_v22_apply, Read.val_main_v21_apply,
    Read.val_main_v20_apply, Read.val_main_cst_0_apply, Read.val_main_v19_apply, Read.val_main_cst_apply]
  unfold Cert.Attn.tokenValue Cert.Attn.score
  rw [Ideal.hostDivf_def, Ideal.hostUnary_sqrt_def, Ideal.ofBits_def, Ideal.ofBits_def, Ideal.ofBits_def, ofBits_1024,
    sqrt_1024, Ideal.div_coe (by norm_num : (32 : ℝ) ≠ 0), ofBits_inv32, Ideal.ofBits_zero_f32, zero_add]
  refine congrArg (Scalar.select _ _) (congrArg (· * ((1 / 32 : ℝ) : EReal)) (Finset.sum_congr rfl fun a _ => ?_))
  rw [idx19, v18_eq]

end Cert.ReferenceIdeal.RefValue

end
-- ==== Proof.lean ====
/-
  The certificate: a Pallas kernel computing masked per-token attention scores against its jnp reference, over the
  extended reals.

  Both programs compute, for batch `b` and sequence position `s`, the sum over 1024 columns of the product of two
  rectified projections of the row `[h(b,s,·) | g(b,·) | l(b,s,·)]`, scaled by 1/√1024, and put -10⁹ where the
  mask word is 1 (`Cert.Attn.result`, Proof/Spec.lean). The kernel contracts the three stretches of the row
  separately — the `g` stretch once per batch on the host, with the bias — and multiplies by 2⁻⁵; the reference
  joins the row, contracts it whole, and divides by √1024. The two agree by splitting a sum over 1152 indices at
  1024 and 1088 and by commutativity and associativity of addition on the extended reals; no finiteness of the
  inputs is used.

  The two kernel frames are the generated ones; the reference's frame is its generated run with the result
  dropped; the idealization rewrote nothing, so `preserves` is trivial; `algebraic` pairs the kernel's run
  (Proof/KernelValue.lean) with the reference's generated run read as the specification (Proof/RefValue.lean).
-/
import proofs.«142428_j89232240541956_1_alg».proof.Defs
import proofs.«142428_j89232240541956_1_alg».proof.Proof.Gen.Kernel
import proofs.«142428_j89232240541956_1_alg».proof.Proof.Gen.Kernel.Skeleton
import proofs.«142428_j89232240541956_1_alg».proof.Proof.Gen.Kernel.Launch
import proofs.«142428_j89232240541956_1_alg».proof.Proof.Gen.Kernel.Points
import proofs.«142428_j89232240541956_1_alg».proof.Proof.Gen.Kernel.Frame
import proofs.«142428_j89232240541956_1_alg».proof.Proof.Gen.KernelIdeal
import proofs.«142428_j89232240541956_1_alg».proof.Proof.Gen.KernelIdeal.Skeleton
import proofs.«142428_j89232240541956_1_alg».proof.Proof.Gen.KernelIdeal.Launch
import proofs.«142428_j89232240541956_1_alg».proof.Proof.Gen.KernelIdeal.Points
import proofs.«142428_j89232240541956_1_alg».proof.Proof.Gen.KernelIdeal.Frame
import proofs.«142428_j89232240541956_1_alg».proof.Proof.Gen.ReferenceIdeal
import proofs.«142428_j89232240541956_1_alg».proof.Proof.Gen.Pre_finite_inputs
import proofs.«142428_j89232240541956_1_alg».proof.Proof.Gen.ReferenceIdeal.Run
import proofs.«142428_j89232240541956_1_alg».proof.Proof.Gen.ReferenceIdeal.Read
import proofs.«142428_j89232240541956_1_alg».proof.Proof.KernelValue
import proofs.«142428_j89232240541956_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's result array. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, -, -⟩ := hagree c
  rw [Cert.ReferenceIdeal.Read.val_main_v25_eq, Cert.ReferenceIdeal.RefValue.ref_result, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
